-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S2048x768 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x768 : Shape := ⟨3, ![32, 2048, 768]⟩
abbrev S32x2048 : Shape := ⟨2, ![32, 2048]⟩
abbrev S_ : Shape := ⟨0, ![]⟩

class Facts : Prop where
  bcast_S_S32x2048x768 : S_.BroadcastsInDim S32x2048x768 (![] : Fin 0 → Fin S32x2048x768.rank)
  reducesTo_S32x2048x768_S_d0_1_2 : S32x2048x768.ReducesTo [0, 1, 2] S_
  h_S_ : 0 < S_.numel
  bcast_S_S32x2048 : S_.BroadcastsInDim S32x2048 (![] : Fin 0 → Fin S32x2048.rank)
  reducesTo_S32x2048_S_d0_1 : S32x2048.ReducesTo [0, 1] S_

variable [Facts]

def fn {F : FTy → Type} [FloatOps F] (main_arg0 : FVec F S32x2048x768 .f32) (main_arg1 : IVec S32x2048 32) : IVec S_ 1 :=
  let main_v0 : FVec F S32x2048x768 .f32 := Host.absf main_arg0
  let main_cst : FVec F S_ .f32 := constant S_ .f32 0x7F800000#32
  let main_v1 : FVec F S32x2048x768 .f32 := broadcastInDim S32x2048x768 ![] bcast_S_S32x2048x768 main_cst
  let main_v2 : IVec S32x2048x768 1 := cmpf .olt main_v0 main_v1
  let main_c : IVec S_ 1 := constantI S_ 1 1#1
  let main_v3 : IVec S_ 1 := (fun x v => Host.reduce IntOp.andi x v reducesTo_S32x2048x768_S_d0_1_2 h_S_) main_v2 main_c
  let main_c_0 : IVec S_ 32 := constantI S_ 32 0#32
  let main_v4 : IVec S32x2048 32 := broadcastInDim S32x2048 ![] bcast_S_S32x2048 main_c_0
  let main_v5 : IVec S32x2048 1 := cmpi .sge main_arg1 main_v4
  let main_c_1 : IVec S_ 32 := constantI S_ 32 1024#32
  let main_v6 : IVec S32x2048 32 := broadcastInDim S32x2048 ![] bcast_S_S32x2048 main_c_1
  let main_v7 : IVec S32x2048 1 := cmpi .slt main_arg1 main_v6
  let main_v8 : IVec S32x2048 1 := andi main_v5 main_v7
  let main_c_2 : IVec S_ 1 := constantI S_ 1 1#1
  let main_v9 : IVec S_ 1 := (fun x v => Host.reduce IntOp.andi x v reducesTo_S32x2048_S_d0_1 h_S_) main_v8 main_c_2
  let main_v10 : IVec S_ 1 := andi main_v3 main_v9
  main_v10
-- ==== Kernel.lean ====
abbrev S32x2048x768 : Shape := ⟨3, ![32, 2048, 768]⟩
abbrev S32x2048 : Shape := ⟨2, ![32, 2048]⟩
abbrev S32x2048x1 : Shape := ⟨3, ![32, 2048, 1]⟩
abbrev S32x1024x768 : Shape := ⟨3, ![32, 1024, 768]⟩
abbrev S32x1x1024 : Shape := ⟨3, ![32, 1, 1024]⟩
abbrev S1x2048x768 : Shape := ⟨3, ![1, 2048, 768]⟩
abbrev S1x2048x1 : Shape := ⟨3, ![1, 2048, 1]⟩
abbrev S1x1024x768 : Shape := ⟨3, ![1, 1024, 768]⟩
abbrev S1x1x1024 : Shape := ⟨3, ![1, 1, 1024]⟩
abbrev S2048x768 : Shape := ⟨2, ![2048, 768]⟩
abbrev S2048 : Shape := ⟨1, ![2048]⟩
abbrev S2048x1024 : Shape := ⟨2, ![2048, 1024]⟩
abbrev S2048x1 : Shape := ⟨2, ![2048, 1]⟩
abbrev S1024x768 : Shape := ⟨2, ![1024, 768]⟩
abbrev S1x2048 : Shape := ⟨2, ![1, 2048]⟩
abbrev S1024x1 : Shape := ⟨2, ![1024, 1]⟩
abbrev S1x1024 : Shape := ⟨2, ![1, 1024]⟩
abbrev S_ : Shape := ⟨0, ![]⟩
abbrev S32x1024 : Shape := ⟨2, ![32, 1024]⟩

abbrev nBuf : Space → Nat
  | .hbm => 10
  | .vmem => 8
  | .smem => 0
  | _ => 0

abbrev bufTy : (tb : Table) → Fin (tcTables nBuf tb) → BufTy
  | .hbm, ⟨0, _⟩ => ⟨S32x2048x768, .f32⟩
  | .hbm, ⟨1, _⟩ => ⟨S32x2048, .i32⟩
  | .hbm, ⟨2, _⟩ => ⟨S32x2048x1, .i32⟩
  | .hbm, ⟨3, _⟩ => ⟨S32x1024x768, .f32⟩
  | .hbm, ⟨4, _⟩ => ⟨S32x1x1024, .i32⟩
  | .hbm, ⟨5, _⟩ => ⟨S_, .i32⟩
  | .hbm, ⟨6, _⟩ => ⟨S32x1x1024, .i32⟩
  | .hbm, ⟨7, _⟩ => ⟨S32x1x1024, .i1⟩
  | .hbm, ⟨8, _⟩ => ⟨S32x1x1024, .i1⟩
  | .hbm, ⟨9, _⟩ => ⟨S32x1024, .i1⟩
  | .local _ .vmem, ⟨0, _⟩ => ⟨S1x2048x768, .f32⟩
  | .local _ .vmem, ⟨1, _⟩ => ⟨S1x2048x768, .f32⟩
  | .local _ .vmem, ⟨2, _⟩ => ⟨S1x2048x1, .i32⟩
  | .local _ .vmem, ⟨3, _⟩ => ⟨S1x2048x1, .i32⟩
  | .local _ .vmem, ⟨4, _⟩ => ⟨S1x1024x768, .f32⟩
  | .local _ .vmem, ⟨5, _⟩ => ⟨S1x1024x768, .f32⟩
  | .local _ .vmem, ⟨6, _⟩ => ⟨S1x1x1024, .i32⟩
  | .local _ .vmem, ⟨7, _⟩ => ⟨S1x1x1024, .i32⟩
  | _, _ => ⟨S32x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S32x2048_S32x2048x1_0_1 : S32x2048.BroadcastsInDim S32x2048x1 (![0, 1] : Fin 2 → Fin S32x2048x1.rank)
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S1x2048x1 : S1x2048x1.ShapeCasts S1x2048x1
  shapeCasts_S1x2048x1_S2048 : S1x2048x1.ShapeCasts S2048
  iota_S2048x1024_d1_w32 : S2048x1024.Iotas .tc 32 [1]
  shapeCasts_S2048_S2048x1 : S2048.ShapeCasts S2048x1
  broadcasts_S2048x1_S2048x1024 : S2048x1.Broadcasts S2048x1024
  natLt_1_32 : 1 < 32
  bitsLt_bf16_f32 : FTy.bits .bf16 < FTy.bits .f32
  broadcasts_S1024x1_S1024x768 : S1024x1.Broadcasts S1024x768
  shapeCasts_S1024x768_S1x1024x768 : S1024x768.ShapeCasts S1x1024x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  bcast_S_S32x1x1024 : S_.BroadcastsInDim S32x1x1024 (![] : Fin 0 → Fin S32x1x1024.rank)
  shapeCasts_S32x1x1024_S32x1024 : S32x1x1024.ShapeCasts S32x1024
  dot_S2048x1024_S2048x768_S1024x768_0_0_1_1_n_n_wf : DotDims.WF S2048x1024 S2048x768 S1024x768 [0] [0] [1] [1] [] []
  dot_S2048x1024_S2048x1_S1024x1_0_0_1_1_n_n_wf : DotDims.WF S2048x1024 S2048x1 S1024x1 [0] [0] [1] [1] [] []
  dot_S1x2048_S2048x1024_S1x1024_1_0_0_1_n_n_wf : DotDims.WF S1x2048 S2048x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x768.size a ≤ S32x2048x768.size a
  hwx0_0 : ∀ i : grid0.Coords, EltTy.bits .f32 = 32 ∨ (Rect.block (s := S32x2048x768) S1x2048x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S32x2048x1.size a
  hwx0_1 : ∀ i : grid0.Coords, EltTy.bits .i32 = 32 ∨ (Rect.block (s := S32x2048x1) S1x2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x768.size a ≤ S32x1024x768.size a
  hwx0_2 : ∀ i : grid0.Coords, EltTy.bits .f32 = 32 ∨ (Rect.block (s := S32x1024x768) S1x1024x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S32x1x1024.size a
  hwx0_3 : ∀ i : grid0.Coords, EltTy.bits .i32 = 32 ∨ (Rect.block (s := S32x1x1024) S1x1x1024.size (cc0_transform_3 i) (hinb0_3 i)).WholeWords (EltTy.packing .i32)

variable [Facts₀]

def dot_S2048x1024_S2048x768_S1024x768_0_0_1_1_n_n : DotDims S2048x1024 S2048x768 S1024x768 where
  lhsContracting := [0]
  rhsContracting := [0]
  lhsNonContracting := [1]
  rhsNonContracting := [1]
  lhsBatch := []
  rhsBatch := []
  wf := dot_S2048x1024_S2048x768_S1024x768_0_0_1_1_n_n_wf
def dot_S2048x1024_S2048x1_S1024x1_0_0_1_1_n_n : DotDims S2048x1024 S2048x1 S1024x1 where
  lhsContracting := [0]
  rhsContracting := [0]
  lhsNonContracting := [1]
  rhsNonContracting := [1]
  lhsBatch := []
  rhsBatch := []
  wf := dot_S2048x1024_S2048x1_S1024x1_0_0_1_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf

abbrev win0_0 : Pipeline.Window sig grid0 :=
  Pipeline.Window.ofSpec (Memref.whole main_arg0) S1x2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x768.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x768 : Shape := ⟨3, ![32, 2048, 768]⟩
abbrev S32x2048 : Shape := ⟨2, ![32, 2048]⟩
abbrev S32 : Shape := ⟨1, ![32]⟩
abbrev S32x1 : Shape := ⟨2, ![32, 1]⟩
abbrev S_ : Shape := ⟨0, ![]⟩
abbrev S65536 : Shape := ⟨1, ![65536]⟩
abbrev S65536x768 : Shape := ⟨2, ![65536, 768]⟩
abbrev S32768x768 : Shape := ⟨2, ![32768, 768]⟩
abbrev S65536x1 : Shape := ⟨2, ![65536, 1]⟩
abbrev S32768 : Shape := ⟨1, ![32768]⟩
abbrev S32x1024x768 : Shape := ⟨3, ![32, 1024, 768]⟩
abbrev S32x1024 : Shape := ⟨2, ![32, 1024]⟩
abbrev S32x1024x1 : Shape := ⟨3, ![32, 1024, 1]⟩

abbrev nBuf : Space → Nat
  | .hbm => 32
  | .vmem => 0
  | .smem => 0
  | _ => 0

abbrev bufTy : (tb : Table) → Fin (tcTables nBuf tb) → BufTy
  | .hbm, ⟨0, _⟩ => ⟨S32x2048x768, .f32⟩
  | .hbm, ⟨1, _⟩ => ⟨S32x2048, .i32⟩
  | .hbm, ⟨2, _⟩ => ⟨S32, .i32⟩
  | .hbm, ⟨3, _⟩ => ⟨S32x1, .i32⟩
  | .hbm, ⟨4, _⟩ => ⟨S_, .i32⟩
  | .hbm, ⟨5, _⟩ => ⟨S32x1, .i32⟩
  | .hbm, ⟨6, _⟩ => ⟨S32x1, .i32⟩
  | .hbm, ⟨7, _⟩ => ⟨S32x2048, .i32⟩
  | .hbm, ⟨8, _⟩ => ⟨S32x2048, .i32⟩
  | .hbm, ⟨9, _⟩ => ⟨S65536, .i32⟩
  | .hbm, ⟨10, _⟩ => ⟨S65536x768, .f32⟩
  | .hbm, ⟨11, _⟩ => ⟨S_, .f32⟩
  | .hbm, ⟨12, _⟩ => ⟨S32768x768, .f32⟩
  | .hbm, ⟨13, _⟩ => ⟨S65536x1, .i32⟩
  | .hbm, ⟨14, _⟩ => ⟨S32768x768, .f32⟩
  | .hbm, ⟨15, _⟩ => ⟨S_, .f32⟩
  | .hbm, ⟨16, _⟩ => ⟨S65536, .f32⟩
  | .hbm, ⟨17, _⟩ => ⟨S_, .f32⟩
  | .hbm, ⟨18, _⟩ => ⟨S32768, .f32⟩
  | .hbm, ⟨19, _⟩ => ⟨S65536x1, .i32⟩
  | .hbm, ⟨20, _⟩ => ⟨S32768, .f32⟩
  | .hbm, ⟨21, _⟩ => ⟨S32x1024x768, .f32⟩
  | .hbm, ⟨22, _⟩ => ⟨S32x1024, .f32⟩
  | .hbm, ⟨23, _⟩ => ⟨S_, .f32⟩
  | .hbm, ⟨24, _⟩ => ⟨S32x1024, .f32⟩
  | .hbm, ⟨25, _⟩ => ⟨S32x1024, .i1⟩
  | .hbm, ⟨26, _⟩ => ⟨S_, .f32⟩
  | .hbm, ⟨27, _⟩ => ⟨S32x1024, .f32⟩
  | .hbm, ⟨28, _⟩ => ⟨S32x1024, .f32⟩
  | .hbm, ⟨29, _⟩ => ⟨S32x1024x1, .f32⟩
  | .hbm, ⟨30, _⟩ => ⟨S32x1024x768, .f32⟩
  | .hbm, ⟨31, _⟩ => ⟨S32x1024x768, .f32⟩
  | _, _ => ⟨S32x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  bcast_S32_S32x1_0 : S32.BroadcastsInDim S32x1 (![0] : Fin 1 → Fin S32x1.rank)
  bcast_S_S32x1 : S_.BroadcastsInDim S32x1 (![] : Fin 0 → Fin S32x1.rank)
  bcast_S32x1_S32x2048_0_1 : S32x1.BroadcastsInDim S32x2048 (![0, 1] : Fin 2 → Fin S32x2048.rank)
  shapeCasts_S32x2048_S65536 : S32x2048.ShapeCasts S65536
  shapeCasts_S32x2048x768_S65536x768 : S32x2048x768.ShapeCasts S65536x768
  bcast_S_S32768x768 : S_.BroadcastsInDim S32768x768 (![] : Fin 0 → Fin S32768x768.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S32768 : S_.BroadcastsInDim S32768 (![] : Fin 0 → Fin S32768.rank)
  shapeCasts_S32768x768_S32x1024x768 : S32768x768.ShapeCasts S32x1024x768
  shapeCasts_S32768_S32x1024 : S32768.ShapeCasts S32x1024
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x768_0_1_2 : S32x1024x1.BroadcastsInDim S32x1024x768 (![0, 1, 2] : Fin 3 → Fin S32x1024x768.rank)
  scatter_S32768x768_S65536x1_S65536x768_1_0_0_1_wf : ScatterDims.WF S32768x768 S65536x1 S65536x768 [1] [0] [0] 1
  scatter_S32768_S65536x1_S65536_n_0_0_1_wf : ScatterDims.WF S32768 S65536x1 S65536 [] [0] [0] 1

variable [Facts₀]

def scatter_S32768x768_S65536x1_S65536x768_1_0_0_1 : ScatterDims S32768x768 S65536x1 S65536x768 where
  updateWindowDims := [1]
  insertedWindowDims := [0]
  scatterDimsToOperandDims := [0]
  indexVectorDim := 1
  wf := scatter_S32768x768_S65536x1_S65536x768_1_0_0_1_wf
def scatter_S32768_S65536x1_S65536_n_0_0_1 : ScatterDims S32768 S65536x1 S65536 where
  updateWindowDims := []
  insertedWindowDims := [0]
  scatterDimsToOperandDims := [0]
  indexVectorDim := 1
  wf := scatter_S32768_S65536x1_S65536_n_0_0_1_wf

class Facts : Prop extends Facts₀ where

variable [Facts]
-- ==== Proof.Spec.lean ====
/-
  Mean pooling of subword rows into word rows, as one function of the two argument arrays.

  For a sentence `b`, a word `w` and a hidden coordinate `d`, the pooled value is the sum of the rows
  `s` whose word id is `w`, times the reciprocal of the larger of the number of such rows and one; the
  word is present when that number is positive. Both programs are shown to compute these two functions,
  and the algebraic facts that join their two spellings are proved here over the extended reals.
-/
import Idealize.ShloMosaic.PureOps.Ideal
import Idealize.ShloMosaic.PureOps.Ideal.Laws
import Idealize.ShloMosaic.Lib.ValueIdx

noncomputable section

open scoped BigOperators

namespace Cert.Pool

open Idealize.ShloMosaic Idealize.ShloMosaic.ValueIdx

/-- The hidden states: sentences × subwords × hidden coordinates. -/
abbrev SH : Shape := ⟨3, ![32, 2048, 768]⟩
/-- The word ids: sentences × subwords. -/
abbrev SI : Shape := ⟨2, ![32, 2048]⟩
/-- The pooled rows: sentences × words × hidden coordinates. -/
abbrev SX : Shape := ⟨3, ![32, 1024, 768]⟩
/-- The presence mask: sentences × words. -/
abbrev SM : Shape := ⟨2, ![32, 1024]⟩

/-- The number of subwords of sentence `b` whose word id is `w`, as the sum of the indicator over the subwords. -/
def count (wid : IVec SI 32) (b : Fin 32) (w : Fin 1024) : EReal :=
  ∑ s : Fin 2048, if wid (ix2 b s) = BitVec.ofNat 32 w.val then (1 : EReal) else 0

/-- The sum of coordinate `d` over the subwords of sentence `b` whose word id is `w`. -/
def total (h : FVec Ideal SH .f32) (wid : IVec SI 32) (b : Fin 32) (w : Fin 1024) (d : Fin 768) : EReal :=
  ∑ s : Fin 2048, if wid (ix2 b s) = BitVec.ofNat 32 w.val then h (ix3 b s d) else 0

/-- The mean of the word's rows (the sum itself, that is zero, for a word with no row). -/
def pooledAt (h : FVec Ideal SH .f32) (wid : IVec SI 32) (b : Fin 32) (w : Fin 1024) (d : Fin 768) : EReal :=
  total h wid b w d * Ideal.div 1 (max (count wid b w) 1)

/-- Whether the word has a row. -/
def presentAt (wid : IVec SI 32) (b : Fin 32) (w : Fin 1024) : BitVec 1 :=
  Ideal.cmp .ogt (count wid b w) 0

/-- The pooled array. -/
def pooled (h : FVec Ideal SH .f32) (wid : IVec SI 32) : FVec Ideal SX .f32 :=
  fun i => pooledAt h wid (i 0) (i 1) (i 2)

/-- The presence mask. -/
def present (wid : IVec SI 32) : IVec SM 1 :=
  fun i => presentAt wid (i 0) (i 1)

theorem pooled_ix3 (h : FVec Ideal SH .f32) (wid : IVec SI 32) (b : Fin 32) (w : Fin 1024) (d : Fin 768) :
    pooled h wid (ix3 b w d) = pooledAt h wid b w d := rfl

theorem present_ix2 (wid : IVec SI 32) (b : Fin 32) (w : Fin 1024) :
    present wid (ix2 b w) = presentAt wid b w := rfl

/-- An array that agrees with the pooled values at every triple of coordinates is the pooled array. -/
theorem eq_pooled (h : FVec Ideal SH .f32) (wid : IVec SI 32) (x : FVec Ideal SX .f32)
    (hx : ∀ b w d, x (ix3 b w d) = pooledAt h wid b w d) : x = pooled h wid := by
  funext i
  rw [eq_ix3 i]
  exact hx _ _ _

/-- An array that agrees with the presence bits at every pair of coordinates is the presence mask. -/
theorem eq_present (wid : IVec SI 32) (x : IVec SM 1)
    (hx : ∀ b w, x (ix2 b w) = presentAt wid b w) : x = present wid := by
  funext i
  rw [eq_ix2 i]
  exact hx _ _

/-! ## The bit patterns of one -/

theorem ofBits_one_f32 : Ideal.ofBits .f32 0x3F800000#32 = 1 := by
  simp [Ideal.ofBits, Ideal.ieee]
  rw [← EReal.coe_mul, ← EReal.coe_one]
  congr 1
  norm_num

theorem ofBits_one_bf16 : Ideal.ofBits .bf16 0x3F80#16 = 1 := by
  simp [Ideal.ofBits, Ideal.ieee]
  rw [← EReal.coe_mul, ← EReal.coe_one]
  congr 1
  norm_num

/-! ## Indicator sums -/

/-- A sum of indicator-weighted terms is the sum of the terms the indicator selects: on the extended reals
    `1 * x = x` and `0 * x = 0` for every `x`, infinite ones included. -/
theorem sum_indicator_mul {ι : Type} [Fintype ι] (p : ι → Prop) [DecidablePred p] (f : ι → EReal) :
    ∑ s, (if p s then (1 : EReal) else 0) * f s = ∑ s, if p s then f s else 0 :=
  Finset.sum_congr rfl fun s _ => by
    by_cases hp : p s
    · rw [if_pos hp, if_pos hp, one_mul]
    · rw [if_neg hp, if_neg hp, zero_mul]

theorem sum_mul_indicator {ι : Type} [Fintype ι] (p : ι → Prop) [DecidablePred p] (f : ι → EReal) :
    ∑ s, f s * (if p s then (1 : EReal) else 0) = ∑ s, if p s then f s else 0 :=
  Finset.sum_congr rfl fun s _ => by
    by_cases hp : p s
    · rw [if_pos hp, if_pos hp, mul_one]
    · rw [if_neg hp, if_neg hp, mul_zero]

/-- Indicator-weighted differences `x - x` of REAL entries sum to zero. -/
theorem sum_indicator_mul_sub_self {ι : Type} [Fintype ι] (p : ι → Prop) [DecidablePred p] (f : ι → EReal)
    (hf : ∀ s, ∃ r : ℝ, f s = (r : EReal)) :
    ∑ s, (if p s then (1 : EReal) else 0) * (f s - f s) = 0 :=
  Finset.sum_eq_zero fun s _ => by
    obtain ⟨r, hr⟩ := hf s
    rw [hr, ← EReal.coe_sub, sub_self, EReal.coe_zero, mul_zero]

/-- The count is a natural number. -/
theorem count_eq_card (wid : IVec SI 32) (b : Fin 32) (w : Fin 1024) :
    count wid b w = ((Finset.univ.filter fun s : Fin 2048 => wid (ix2 b s) = BitVec.ofNat 32 w.val).card : EReal) := by
  unfold count
  rw [Finset.sum_boole]

/-- Dividing by the larger of a natural number and one is multiplying by its reciprocal. -/
theorem div_max_one (x : EReal) (n : ℕ) :
    Ideal.div x (max (n : EReal) 1) = x * Ideal.div 1 (max (n : EReal) 1) := by
  have hm : max (n : EReal) 1 = ((max (n : ℝ) 1 : ℝ) : EReal) := by
    rw [(EReal.coe_strictMono.monotone).map_max]
    simp
  have hne : (max (n : ℝ) 1) ≠ 0 := by
    have : (1 : ℝ) ≤ max (n : ℝ) 1 := le_max_right _ _
    linarith
  rw [hm, Ideal.div_coe hne, Ideal.div_coe hne, one_mul]

/-- The reference's quotient is the product the pooled value is stated as. -/
theorem div_max_count (x : EReal) (wid : IVec SI 32) (b : Fin 32) (w : Fin 1024) :
    Ideal.div x (max (count wid b w) 1) = x * Ideal.div 1 (max (count wid b w) 1) := by
  rw [count_eq_card]
  exact div_max_one x _

end Cert.Pool

end
-- ==== Proof.PreFacts.lean ====
/-
  What the precondition says of the two argument arrays, at the ideal instance.

  The precondition is the conjunction of two statements, each a conjunction over every element of an array:
  the absolute value of every hidden state is below plus infinity, and every word id, read as a signed word,
  lies in [0, 1024). The first says that every hidden state is a real number: on the extended reals the larger of
  x and -x is plus infinity exactly when x is one of the two infinities. The second says that every word id, read
  unsigned, is below 1024: a signed word that is not negative reads the same signed and unsigned.
-/
import proofs.«426323_j45887430590984_3_alg».proof.Proof.Spec
import proofs.«426323_j45887430590984_3_alg».proof.Proof.Gen.Pre_finite_inputs
import Idealize.ShloMosaic.Lib.ReduceAll
import Idealize.ShloMosaic.Lib.Affine

noncomputable section

namespace Cert.Pool

open Idealize.ShloMosaic Idealize.ShloMosaic.ValueIdx

/-- The scalar shape has one index. -/
instance : Subsingleton Cert.Pre_finite_inputs.S_.Idx := ⟨fun a b => funext fun d => d.elim0⟩

/-- A truth value printed as a one-bit word is 1 exactly when it is true. -/
theorem ofBool_eq_one {b : Bool} : BitVec.ofBool b = 1#1 ↔ b = true := by cases b <;> decide

/-- The bit pattern the absolute values are compared with is plus infinity. -/
theorem ofBits_inf_f32 : Ideal.ofBits .f32 0x7F800000#32 = (⊤ : EReal) := by
  simp [Ideal.ofBits, Ideal.ieee]

/-- An extended real whose absolute value is below plus infinity is a real. -/
theorem real_of_abs_lt_top (x : EReal) (hx : max x (-x) < (⊤ : EReal)) : ∃ r : ℝ, x = (r : EReal) := by
  induction x using EReal.rec with
  | bot => simp at hx
  | coe r => exact ⟨r, rfl⟩
  | top => simp at hx

/-- A signed 32-bit word in [0, 1024) is below 1024 read unsigned. -/
theorem toNat_lt_of_toInt {w : BitVec 32} (h0 : (0#32 : BitVec 32).toInt ≤ w.toInt) (h1 : w.toInt < (1024#32 : BitVec 32).toInt) :
    w.toNat < 1024 := by
  have e0 : (0#32 : BitVec 32).toInt = 0 := by decide
  have e1 : (1024#32 : BitVec 32).toInt = 1024 := by decide
  rw [e0] at h0
  rw [e1] at h1
  have hw := w.isLt
  rw [BitVec.toInt_eq_toNat_cond] at h0 h1
  split at h0 <;> omega

/-- Under the precondition every hidden state is a real number. -/
theorem real_of_pre (h : FVec Ideal SH .f32) (wid : IVec SI 32)
    (hp : Cert.Pre_finite_inputs.fn (F := Ideal) h wid = fun _ => 1#1) : ∀ i, ∃ r : ℝ, h i = (r : EReal) := by
  intro i
  have h0 := congrFun hp ValueIdx.ix0
  dsimp only [Cert.Pre_finite_inputs.fn] at h0
  obtain ⟨h1, -⟩ := IntOp.andi_eq_one.1 h0
  have h2 := Host.reduce_andi_all _ _ _ _ _ h1 i
  have h3 : Ideal.cmp .olt (max (h i) (-(h i))) (Ideal.ofBits .f32 0x7F800000#32) = 1#1 := h2
  rw [ofBits_inf_f32] at h3
  have h4 : BitVec.ofBool (decide (max (h i) (-(h i)) < (⊤ : EReal))) = 1#1 := h3
  exact real_of_abs_lt_top (h i) (of_decide_eq_true (ofBool_eq_one.1 h4))

/-- Under the precondition every word id, read unsigned, is below 1024. -/
theorem range_of_pre (h : FVec Ideal SH .f32) (wid : IVec SI 32)
    (hp : Cert.Pre_finite_inputs.fn (F := Ideal) h wid = fun _ => 1#1) : ∀ i, (wid i).toNat < 1024 := by
  intro i
  have h0 := congrFun hp ValueIdx.ix0
  dsimp only [Cert.Pre_finite_inputs.fn] at h0
  obtain ⟨-, h1⟩ := IntOp.andi_eq_one.1 h0
  have h2 := Host.reduce_andi_all _ _ _ _ _ h1 i
  obtain ⟨h3, h4⟩ := IntOp.andi_eq_one.1 h2
  have h5 : (0#32 : BitVec 32).toInt ≤ (wid i).toInt := IntOp.cmpi_sge.1 h3
  have h6 : (wid i).toInt < (1024#32 : BitVec 32).toInt := IntOp.cmpi_slt.1 h4
  exact toNat_lt_of_toInt h5 h6

end Cert.Pool

end
-- ==== Proof.KernelOps.lean ====
/-
  The kernel body's arithmetic read at an index, at the ideal values.

  The body builds, for the block of one sentence, the 0/1 matrix `onehot[s, w] = (word id of subword s is w)`, and takes
  four products with it over the subword axis: with the hidden rows, with the rows' differences from themselves, with a
  column of ones and with a row of ones. Each product read at an output index is the sum over the 2048 subwords of the
  two operands' entries there; the 0/1 matrix read at `(s, w)` is the indicator of `word id s = w`.
-/
import proofs.«426323_j45887430590984_3_alg».proof.Proof.Gen.KernelIdeal.Skeleton
import proofs.«426323_j45887430590984_3_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.KernelIdeal.PoolBody

open Idealize.ShloMosaic Idealize.ShloMosaic.ValueIdx Cert.KernelIdeal Cert.KernelIdeal.Gen Cert.Pool

/-! ## The three products' operand indices -/

/-- onehotᵀ · rows: [2048,1024] × [2048,768] → [1024,768], contracting the subword axis of both. -/
abbrev dRows := dot_S2048x1024_S2048x768_S1024x768_0_0_1_1_n_n
/-- onehotᵀ · ones column: [2048,1024] × [2048,1] → [1024,1]. -/
abbrev dCol := dot_S2048x1024_S2048x1_S1024x1_0_0_1_1_n_n
/-- ones row · onehot: [1,2048] × [2048,1024] → [1,1024]. -/
abbrev dRow := dot_S1x2048_S2048x1024_S1x1024_1_0_0_1_n_n

theorem lhs_dRows_0 (i : S1024x768.Idx) (q : dot_S2048x1024_S2048x768_S1024x768_0_0_1_1_n_n.contr.Idx) :
    (dot_S2048x1024_S2048x768_S1024x768_0_0_1_1_n_n.lhsIdx i q 0).val = (q ⟨0, by decide⟩).val :=
  dot_S2048x1024_S2048x768_S1024x768_0_0_1_1_n_n.lhsIdx_val_of_single rfl i q
theorem lhs_dRows_1 (i : S1024x768.Idx) (q : dot_S2048x1024_S2048x768_S1024x768_0_0_1_1_n_n.contr.Idx) :
    (dot_S2048x1024_S2048x768_S1024x768_0_0_1_1_n_n.lhsIdx i q 1).val = (i 0).val := by
  unfold DotDims.lhsIdx
  rw [dif_neg (show ¬(1 : Fin S2048x1024.rank) ∈ dot_S2048x1024_S2048x768_S1024x768_0_0_1_1_n_n.lhsBatch by decide),
    dif_pos (show (1 : Fin S2048x1024.rank) ∈ dot_S2048x1024_S2048x768_S1024x768_0_0_1_1_n_n.lhsNonContracting by decide)]
  rfl
theorem rhs_dRows_0 (i : S1024x768.Idx) (q : dot_S2048x1024_S2048x768_S1024x768_0_0_1_1_n_n.contr.Idx) :
    (dot_S2048x1024_S2048x768_S1024x768_0_0_1_1_n_n.rhsIdx i q 0).val = (q ⟨0, by decide⟩).val :=
  dot_S2048x1024_S2048x768_S1024x768_0_0_1_1_n_n.rhsIdx_val_of_single rfl i q
theorem rhs_dRows_1 (i : S1024x768.Idx) (q : dot_S2048x1024_S2048x768_S1024x768_0_0_1_1_n_n.contr.Idx) :
    (dot_S2048x1024_S2048x768_S1024x768_0_0_1_1_n_n.rhsIdx i q 1).val = (i 1).val := by
  unfold DotDims.rhsIdx
  rw [dif_neg (show ¬(1 : Fin S2048x768.rank) ∈ dot_S2048x1024_S2048x768_S1024x768_0_0_1_1_n_n.rhsBatch by decide),
    dif_pos (show (1 : Fin S2048x768.rank) ∈ dot_S2048x1024_S2048x768_S1024x768_0_0_1_1_n_n.rhsNonContracting by decide)]
  rfl

/-- The product with the rows, into a zero accumulator, at `(w, d)`: the sum over the subwords. -/
theorem matmul_rows_apply (L : FVec Ideal S2048x1024 .bf16) (R : FVec Ideal S2048x768 .bf16) (w : Fin 1024) (d : Fin 768) :
    matmul dot_S2048x1024_S2048x768_S1024x768_0_0_1_1_n_n none L R (constant S1024x768 .f32 0x00000000#32) (ix2 w d)
      = ∑ s : Fin 2048, L (ix2 s w) * R (ix2 s d) := by
  simp only [matmul]
  rw [Ideal.matmul_constant_zero_apply,
    ← Equiv.sum_comp (contrEquiv1 dot_S2048x1024_S2048x768_S1024x768_0_0_1_1_n_n 2048 rfl rfl).symm]
  refine Finset.sum_congr rfl fun k _ => ?_
  have hk := contrEquiv1_symm_val dot_S2048x1024_S2048x768_S1024x768_0_0_1_1_n_n 2048 rfl rfl k
  have el : dot_S2048x1024_S2048x768_S1024x768_0_0_1_1_n_n.lhsIdx (ix2 w d)
      ((contrEquiv1 dot_S2048x1024_S2048x768_S1024x768_0_0_1_1_n_n 2048 rfl rfl).symm k) = ix2 k w :=
    funext fun a => Fin.ext (by
      match a with
      | ⟨0, _⟩ => exact (lhs_dRows_0 _ _).trans hk
      | ⟨1, _⟩ => exact lhs_dRows_1 _ _)
  have er : dot_S2048x1024_S2048x768_S1024x768_0_0_1_1_n_n.rhsIdx (ix2 w d)
      ((contrEquiv1 dot_S2048x1024_S2048x768_S1024x768_0_0_1_1_n_n 2048 rfl rfl).symm k) = ix2 k d :=
    funext fun a => Fin.ext (by
      match a with
      | ⟨0, _⟩ => exact (rhs_dRows_0 _ _).trans hk
      | ⟨1, _⟩ => exact rhs_dRows_1 _ _)
  rw [el, er]

theorem lhs_dCol_0 (i : S1024x1.Idx) (q : dot_S2048x1024_S2048x1_S1024x1_0_0_1_1_n_n.contr.Idx) :
    (dot_S2048x1024_S2048x1_S1024x1_0_0_1_1_n_n.lhsIdx i q 0).val = (q ⟨0, by decide⟩).val :=
  dot_S2048x1024_S2048x1_S1024x1_0_0_1_1_n_n.lhsIdx_val_of_single rfl i q
theorem lhs_dCol_1 (i : S1024x1.Idx) (q : dot_S2048x1024_S2048x1_S1024x1_0_0_1_1_n_n.contr.Idx) :
    (dot_S2048x1024_S2048x1_S1024x1_0_0_1_1_n_n.lhsIdx i q 1).val = (i 0).val := by
  unfold DotDims.lhsIdx
  rw [dif_neg (show ¬(1 : Fin S2048x1024.rank) ∈ dot_S2048x1024_S2048x1_S1024x1_0_0_1_1_n_n.lhsBatch by decide),
    dif_pos (show (1 : Fin S2048x1024.rank) ∈ dot_S2048x1024_S2048x1_S1024x1_0_0_1_1_n_n.lhsNonContracting by decide)]
  rfl
theorem rhs_dCol_0 (i : S1024x1.Idx) (q : dot_S2048x1024_S2048x1_S1024x1_0_0_1_1_n_n.contr.Idx) :
    (dot_S2048x1024_S2048x1_S1024x1_0_0_1_1_n_n.rhsIdx i q 0).val = (q ⟨0, by decide⟩).val :=
  dot_S2048x1024_S2048x1_S1024x1_0_0_1_1_n_n.rhsIdx_val_of_single rfl i q
theorem rhs_dCol_1 (i : S1024x1.Idx) (q : dot_S2048x1024_S2048x1_S1024x1_0_0_1_1_n_n.contr.Idx) :
    (dot_S2048x1024_S2048x1_S1024x1_0_0_1_1_n_n.rhsIdx i q 1).val = (i 1).val := by
  unfold DotDims.rhsIdx
  rw [dif_neg (show ¬(1 : Fin S2048x1.rank) ∈ dot_S2048x1024_S2048x1_S1024x1_0_0_1_1_n_n.rhsBatch by decide),
    dif_pos (show (1 : Fin S2048x1.rank) ∈ dot_S2048x1024_S2048x1_S1024x1_0_0_1_1_n_n.rhsNonContracting by decide)]
  rfl

/-- The product with a one-column right operand, at `(w, 0)`. -/
theorem matmul_col_apply (L : FVec Ideal S2048x1024 .bf16) (R : FVec Ideal S2048x1 .bf16) (w : Fin 1024) (z : Fin 1) :
    matmul dot_S2048x1024_S2048x1_S1024x1_0_0_1_1_n_n none L R (constant S1024x1 .f32 0x00000000#32) (ix2 w z)
      = ∑ s : Fin 2048, L (ix2 s w) * R (ix2 s z) := by
  simp only [matmul]
  rw [Ideal.matmul_constant_zero_apply,
    ← Equiv.sum_comp (contrEquiv1 dot_S2048x1024_S2048x1_S1024x1_0_0_1_1_n_n 2048 rfl rfl).symm]
  refine Finset.sum_congr rfl fun k _ => ?_
  have hk := contrEquiv1_symm_val dot_S2048x1024_S2048x1_S1024x1_0_0_1_1_n_n 2048 rfl rfl k
  have el : dot_S2048x1024_S2048x1_S1024x1_0_0_1_1_n_n.lhsIdx (ix2 w z)
      ((contrEquiv1 dot_S2048x1024_S2048x1_S1024x1_0_0_1_1_n_n 2048 rfl rfl).symm k) = ix2 k w :=
    funext fun a => Fin.ext (by
      match a with
      | ⟨0, _⟩ => exact (lhs_dCol_0 _ _).trans hk
      | ⟨1, _⟩ => exact lhs_dCol_1 _ _)
  have er : dot_S2048x1024_S2048x1_S1024x1_0_0_1_1_n_n.rhsIdx (ix2 w z)
      ((contrEquiv1 dot_S2048x1024_S2048x1_S1024x1_0_0_1_1_n_n 2048 rfl rfl).symm k) = ix2 k z :=
    funext fun a => Fin.ext (by
      match a with
      | ⟨0, _⟩ => exact (rhs_dCol_0 _ _).trans hk
      | ⟨1, _⟩ => exact rhs_dCol_1 _ _)
  rw [el, er]

theorem lhs_dRow_0 (i : S1x1024.Idx) (q : dot_S1x2048_S2048x1024_S1x1024_1_0_0_1_n_n.contr.Idx) :
    (dot_S1x2048_S2048x1024_S1x1024_1_0_0_1_n_n.lhsIdx i q 0).val = (i 0).val := by
  unfold DotDims.lhsIdx
  rw [dif_neg (show ¬(0 : Fin S1x2048.rank) ∈ dot_S1x2048_S2048x1024_S1x1024_1_0_0_1_n_n.lhsBatch by decide),
    dif_pos (show (0 : Fin S1x2048.rank) ∈ dot_S1x2048_S2048x1024_S1x1024_1_0_0_1_n_n.lhsNonContracting by decide)]
  rfl
theorem lhs_dRow_1 (i : S1x1024.Idx) (q : dot_S1x2048_S2048x1024_S1x1024_1_0_0_1_n_n.contr.Idx) :
    (dot_S1x2048_S2048x1024_S1x1024_1_0_0_1_n_n.lhsIdx i q 1).val = (q ⟨0, by decide⟩).val :=
  dot_S1x2048_S2048x1024_S1x1024_1_0_0_1_n_n.lhsIdx_val_of_single rfl i q
theorem rhs_dRow_0 (i : S1x1024.Idx) (q : dot_S1x2048_S2048x1024_S1x1024_1_0_0_1_n_n.contr.Idx) :
    (dot_S1x2048_S2048x1024_S1x1024_1_0_0_1_n_n.rhsIdx i q 0).val = (q ⟨0, by decide⟩).val :=
  dot_S1x2048_S2048x1024_S1x1024_1_0_0_1_n_n.rhsIdx_val_of_single rfl i q
theorem rhs_dRow_1 (i : S1x1024.Idx) (q : dot_S1x2048_S2048x1024_S1x1024_1_0_0_1_n_n.contr.Idx) :
    (dot_S1x2048_S2048x1024_S1x1024_1_0_0_1_n_n.rhsIdx i q 1).val = (i 1).val := by
  unfold DotDims.rhsIdx
  rw [dif_neg (show ¬(1 : Fin S2048x1024.rank) ∈ dot_S1x2048_S2048x1024_S1x1024_1_0_0_1_n_n.rhsBatch by decide),
    dif_pos (show (1 : Fin S2048x1024.rank) ∈ dot_S1x2048_S2048x1024_S1x1024_1_0_0_1_n_n.rhsNonContracting by decide)]
  rfl

/-- The product of a one-row left operand with the 0/1 matrix, at `(0, w)`. -/
theorem matmul_row_apply (L : FVec Ideal S1x2048 .bf16) (R : FVec Ideal S2048x1024 .bf16) (z : Fin 1) (w : Fin 1024) :
    matmul dot_S1x2048_S2048x1024_S1x1024_1_0_0_1_n_n none L R (constant S1x1024 .f32 0x00000000#32) (ix2 z w)
      = ∑ s : Fin 2048, L (ix2 z s) * R (ix2 s w) := by
  simp only [matmul]
  rw [Ideal.matmul_constant_zero_apply,
    ← Equiv.sum_comp (contrEquiv1 dot_S1x2048_S2048x1024_S1x1024_1_0_0_1_n_n 2048 rfl rfl).symm]
  refine Finset.sum_congr rfl fun k _ => ?_
  have hk := contrEquiv1_symm_val dot_S1x2048_S2048x1024_S1x1024_1_0_0_1_n_n 2048 rfl rfl k
  have el : dot_S1x2048_S2048x1024_S1x1024_1_0_0_1_n_n.lhsIdx (ix2 z w)
      ((contrEquiv1 dot_S1x2048_S2048x1024_S1x1024_1_0_0_1_n_n 2048 rfl rfl).symm k) = ix2 z k :=
    funext fun a => Fin.ext (by
      match a with
      | ⟨0, _⟩ => exact lhs_dRow_0 _ _
      | ⟨1, _⟩ => exact (lhs_dRow_1 _ _).trans hk)
  have er : dot_S1x2048_S2048x1024_S1x1024_1_0_0_1_n_n.rhsIdx (ix2 z w)
      ((contrEquiv1 dot_S1x2048_S2048x1024_S1x1024_1_0_0_1_n_n 2048 rfl rfl).symm k) = ix2 k w :=
    funext fun a => Fin.ext (by
      match a with
      | ⟨0, _⟩ => exact (rhs_dRow_0 _ _).trans hk
      | ⟨1, _⟩ => exact rhs_dRow_1 _ _)
  rw [el, er]

/-! ## The 0/1 matrix -/

/-- A compared pair of words, widened and converted: one where they are equal, zero where they are not. -/
theorem indicator_word (a b : BitVec 32) :
    (FloatOps.sitofp (F := Ideal) .f32 ((IntOp.cmpi .eq a b).setWidth 32) : EReal) = if a = b then (1 : EReal) else 0 := by
  by_cases h : a = b
  · rw [if_pos h, StableHlo.Predicate.cmpi_eq_iff.2 h]
    show (((1#1 : BitVec 1).setWidth 32).toInt : ℝ) = (1 : EReal)
    norm_num
  · rw [if_neg h, eq_zero_of_ne_one (fun hc => h (StableHlo.Predicate.cmpi_eq_iff.1 hc))]
    show (((0#1 : BitVec 1).setWidth 32).toInt : ℝ) = (0 : EReal)
    norm_num

/-- The 0/1 matrix at `(s, w)`: whether the block's word id at subword `s` is `w`. -/
theorem onehot_apply (x1 : Vec Ideal S1x2048x1 .i32) (s : Fin 2048) (w : Fin 1024) :
    k0_pay1 (F := Ideal) x1 (ix2 s w)
      = if x1 (ix3 (0 : Fin 1) s (0 : Fin 1)) = BitVec.ofNat 32 w.val then (1 : EReal) else 0 := by
  unfold k0_pay1
  rw [truncf_apply, sitofp_apply, extui_apply]
  show (FloatOps.sitofp (F := Ideal) .f32 ((IntOp.cmpi .eq _ _).setWidth 32) : EReal) = _
  rw [indicator_word, iota_single_apply,
    broadcastTo_apply _ _ (ix2 s w) (ix2 s (0 : Fin 1)) (fun a => match a with
      | ⟨0, _⟩ => by show s.val = if (2048 : Nat) = 1 then 0 else s.val; rw [if_neg (by decide)]
      | ⟨1, _⟩ => by show 0 = if (1 : Nat) = 1 then 0 else w.val; rw [if_pos rfl]),
    shapeCast_apply _ _ (ix2 s (0 : Fin 1)) (ix1 s) (by
      rw [Shape.rowMajor_val_one, Shape.rowMajor_val_two]; show s.val = s.val * 1 + 0; omega),
    shapeCast_apply _ _ (ix1 s) (ix3 (0 : Fin 1) s (0 : Fin 1)) (by
      rw [Shape.rowMajor_val_three, Shape.rowMajor_val_one]; show (0 * 2048 + s.val) * 1 + 0 = s.val; omega),
    shapeCast_self]

end Cert.KernelIdeal.PoolBody

end
-- ==== Proof.KernelBody.lean ====
/-
  What the kernel body stores, read at an index, at the ideal values.

  For the block of one sentence (`x0` its hidden rows, `x1` its word ids as a column) the stored row block at
  `(w, d)` is the indicator-weighted sum of the rows, plus the indicator-weighted sum of the rows' differences
  from themselves, times one over the larger of the indicator's sum and one; the stored presence word at `w` is the
  widened bit of "the indicator's sum is positive".
-/
import proofs.«426323_j45887430590984_3_alg».proof.Proof.KernelOps

noncomputable section

open scoped BigOperators

namespace Cert.KernelIdeal.PoolBody

open Idealize.ShloMosaic Idealize.ShloMosaic.ValueIdx Cert.KernelIdeal Cert.KernelIdeal.Gen Cert.Pool

/-- Whether the block's word id at subword `s` is `w`, as zero or one. -/
def hit (x1 : Vec Ideal S1x2048x1 .i32) (w : Fin 1024) (s : Fin 2048) : EReal :=
  if x1 (ix3 (0 : Fin 1) s (0 : Fin 1)) = BitVec.ofNat 32 w.val then (1 : EReal) else 0

/-- The stored row block at `(0, w, d)`. -/
theorem rows_apply (x0 : Vec Ideal S1x2048x768 .f32) (x1 : Vec Ideal S1x2048x1 .i32) (w : Fin 1024) (d : Fin 768) :
    k0_pay2 (F := Ideal) x0 x1 (ix3 (0 : Fin 1) w d)
      = ((∑ s : Fin 2048, hit x1 w s * x0 (ix3 (0 : Fin 1) s d))
          + ∑ s : Fin 2048, hit x1 w s * (x0 (ix3 (0 : Fin 1) s d) - x0 (ix3 (0 : Fin 1) s d)))
        * Ideal.div 1 (max (∑ s : Fin 2048, hit x1 w s * 1) 1) := by
  unfold k0_pay2
  rw [shapeCast_ab_1ab_apply, mulf_apply, addf_apply,
    broadcastTo_apply _ _ (ix2 w d) (ix2 w (0 : Fin 1)) (fun a => match a with
      | ⟨0, _⟩ => by show w.val = if (1024 : Nat) = 1 then 0 else w.val; rw [if_neg (by decide)]
      | ⟨1, _⟩ => by show 0 = if (1 : Nat) = 1 then 0 else d.val; rw [if_pos rfl]),
    divf_apply, maximumf_apply, matmul_rows_apply, matmul_rows_apply, matmul_col_apply]
  simp only [onehot_apply, truncf_apply, subf_apply, shapeCast_1ab_ab_apply, broadcast_apply]
  show _ * Ideal.div (Ideal.ofBits .f32 0x3F800000#32) (max (∑ s : Fin 2048, _ * Ideal.ofBits .bf16 0x3F80#16) (Ideal.ofBits .f32 0x3F800000#32)) = _
  rw [ofBits_one_f32, ofBits_one_bf16]
  rfl

/-- The stored presence word at `(0, 0, w)`. -/
theorem present_apply (x1 : Vec Ideal S1x2048x1 .i32) (w : Fin 1024) :
    k0_pay3 (F := Ideal) x1 (ix3 (0 : Fin 1) (0 : Fin 1) w)
      = (Ideal.cmp .ogt (∑ s : Fin 2048, 1 * hit x1 w s) 0).setWidth 32 := by
  unfold k0_pay3
  rw [extui_apply, shapeCast_ab_1ab_apply, cmpf_apply, matmul_row_apply]
  simp only [onehot_apply, broadcast_apply]
  show (Ideal.cmp .ogt (∑ s : Fin 2048, Ideal.ofBits .bf16 0x3F80#16 * _) (Ideal.ofBits .f32 0x00000000#32)).setWidth 32 = _
  rw [ofBits_one_bf16, Ideal.ofBits_zero_f32]
  rfl

end Cert.KernelIdeal.PoolBody

end
-- ==== Proof.KernelArray.lean ====
/-
  The kernel's two output arrays after the run, each as one function of the arrays the region finds.

  Grid point `t` handles sentence `t`: every window's block at `t` is row `t` of its array, whole on the other
  axes. So what point `t` writes back is row `t` of one whole-array function, the 32 blocks cover each output
  array, and the array ends holding that function.
-/
import proofs.«426323_j45887430590984_3_alg».proof.Proof.Gen.KernelIdeal.Frame
import proofs.«426323_j45887430590984_3_alg».proof.Proof.KernelBody
import Idealize.ShloMosaic.Lib.Pipeline.Value

set_option maxRecDepth 16384

noncomputable section

open scoped BigOperators

namespace Cert.KernelIdeal.PoolValue

open Cert.KernelIdeal Cert.KernelIdeal.Gen Idealize.ShloMosaic Idealize.ShloMosaic.TcCoe Idealize.SL.Sem
open Idealize.ShloMosaic.ValueIdx Cert.Pool Cert.KernelIdeal.PoolBody
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- Every window's block index at grid point `t` is `(t, 0, 0)`. -/
theorem idx_all : ∀ t : Fin cfg0.N, win0_0.index t = ![t.val, 0, 0] ∧ win0_1.index t = ![t.val, 0, 0]
    ∧ win0_2.index t = ![t.val, 0, 0] ∧ win0_3.index t = ![t.val, 0, 0] :=
  (by decide +kernel : ∀ t : Fin grid0.N, _)

/-- The sentence a grid point handles. -/
abbrev sent (t : Fin cfg0.N) : Fin 32 := t.cast N_0

/-! ## The whole-array functions -/

/-- Whether the word id of subword `s` of sentence `b` is `w`, as zero or one (the ids as a column array). -/
def ind (a1 : IVec S32x2048x1 32) (b : Fin 32) (w : Fin 1024) (s : Fin 2048) : EReal :=
  if a1 (ix3 b s (0 : Fin 1)) = BitVec.ofNat 32 w.val then (1 : EReal) else 0

/-- The pooled value as the body computes it. -/
def rowsOf (a0 : FVec Ideal S32x2048x768 .f32) (a1 : IVec S32x2048x1 32) (b : Fin 32) (w : Fin 1024) (d : Fin 768) : EReal :=
  ((∑ s : Fin 2048, ind a1 b w s * a0 (ix3 b s d))
      + ∑ s : Fin 2048, ind a1 b w s * (a0 (ix3 b s d) - a0 (ix3 b s d)))
    * Ideal.div 1 (max (∑ s : Fin 2048, ind a1 b w s * 1) 1)

def rowsArr (a0 : FVec Ideal S32x2048x768 .f32) (a1 : IVec S32x2048x1 32) : FVec Ideal S32x1024x768 .f32 :=
  fun i => rowsOf a0 a1 (i 0) (i 1) (i 2)

/-- The presence word as the body computes it. -/
def maskOf (a1 : IVec S32x2048x1 32) (b : Fin 32) (w : Fin 1024) : BitVec 32 :=
  (Ideal.cmp .ogt (∑ s : Fin 2048, 1 * ind a1 b w s) 0).setWidth 32

def maskArr (a1 : IVec S32x2048x1 32) : IVec S32x1x1024 32 :=
  fun i => maskOf a1 (i 0) (i 2)

/-! ## The input blocks -/

/-- The hidden block of point `t` is sentence `t` of the hidden array. -/
theorem hid_blk (c : Dev nD) (t : Fin cfg0.N) (s : Fin 2048) (d : Fin 768) :
    (iblk m c 0 t : Vec Ideal S1x2048x768 .f32) (ix3 (0 : Fin 1) s d)
      = (V m c main_arg0 : FVec Ideal S32x2048x768 .f32) (ix3 (sent t) s d) := by
  obtain ⟨e0, -, -, -⟩ := idx_all t
  have h0 : win0_0.index t (0 : Fin 3) = t.val := congrFun e0 0
  have h1 : win0_0.index t (1 : Fin 3) = 0 := congrFun e0 1
  have h2 : win0_0.index t (2 : Fin 3) = 0 := congrFun e0 2
  unfold iblk
  rw [View.read_apply]
  show V m c main_arg0 _ = V m c main_arg0 _
  congr 1
  funext a
  apply Fin.ext
  match a with
  | ⟨0, _⟩ => show win0_0.index t (0 : Fin 3) * 1 + 1 * 0 = t.val; rw [h0]; omega
  | ⟨1, _⟩ => show win0_0.index t (1 : Fin 3) * 2048 + 1 * s.val = s.val; rw [h1]; omega
  | ⟨2, _⟩ => show win0_0.index t (2 : Fin 3) * 768 + 1 * d.val = d.val; rw [h2]; omega

/-- The word-id block of point `t` is sentence `t` of the word-id column array. -/
theorem wid_blk (c : Dev nD) (t : Fin cfg0.N) (s : Fin 2048) (z : Fin 1) :
    (iblk m c 1 t : Vec Ideal S1x2048x1 .i32) (ix3 (0 : Fin 1) s z)
      = (V m c main_v0 : IVec S32x2048x1 32) (ix3 (sent t) s z) := by
  obtain ⟨-, e1, -, -⟩ := idx_all t
  have h0 : win0_1.index t (0 : Fin 3) = t.val := congrFun e1 0
  have h1 : win0_1.index t (1 : Fin 3) = 0 := congrFun e1 1
  have h2 : win0_1.index t (2 : Fin 3) = 0 := congrFun e1 2
  unfold iblk
  rw [View.read_apply]
  show V m c main_v0 _ = V m c main_v0 _
  congr 1
  funext a
  apply Fin.ext
  match a with
  | ⟨0, _⟩ => show win0_1.index t (0 : Fin 3) * 1 + 1 * 0 = t.val; rw [h0]; omega
  | ⟨1, _⟩ => show win0_1.index t (1 : Fin 3) * 2048 + 1 * s.val = s.val; rw [h1]; omega
  | ⟨2, _⟩ => show win0_1.index t (2 : Fin 3) * 1 + 1 * z.val = z.val; rw [h2]; omega

/-! ## The pooled rows -/

/-- What point `t` writes back to the pooled array is row `t` of `rowsArr`. -/
theorem flushed_rows (c : Dev nD) (t : Fin cfg0.N) :
    (dats m 0 c).flushed 2 t = ((cfg0.win 2).blk t).view.read (Elt Ideal) (rowsArr (V m c main_arg0) (V m c main_v0)) := by
  show (cfg0.win 2).cut (grid0.coords t) ((dats m 0 c).after 2 t) = _
  rw [after0_2]
  unfold out0_2
  rw [View.canon_unit_zero hz3]
  simp only [View.ld_unit_zero (S := S1x2048x768) hz3, View.ld_unit_zero (S := S1x2048x1) hz3]
  obtain ⟨-, -, e2, -⟩ := idx_all t
  have h0 : win0_2.index t (0 : Fin 3) = t.val := congrFun e2 0
  have h1 : win0_2.index t (1 : Fin 3) = 0 := congrFun e2 1
  have h2 : win0_2.index t (2 : Fin 3) = 0 := congrFun e2 2
  funext j
  obtain ⟨u, w, d, rfl⟩ : ∃ (u : Fin 1) (w : Fin 1024) (d : Fin 768), j = ix3 u w d := ⟨j 0, j 1, j 2, eq_ix3 j⟩
  obtain rfl : u = 0 := Subsingleton.elim _ _
  have hemb : ((cfg0.win 2).blk t).view.emb (ix3 (0 : Fin 1) w d) = (ix3 (sent t) w d : S32x1024x768.Idx) := by
    funext a
    apply Fin.ext
    match a with
    | ⟨0, _⟩ => show win0_2.index t (0 : Fin 3) * 1 + 1 * 0 = t.val; rw [h0]; omega
    | ⟨1, _⟩ => show win0_2.index t (1 : Fin 3) * 1024 + 1 * w.val = w.val; rw [h1]; omega
    | ⟨2, _⟩ => show win0_2.index t (2 : Fin 3) * 768 + 1 * d.val = d.val; rw [h2]; omega
  show k0_pay2 (F := Ideal) (iblk m c 0 t) (iblk m c 1 t) (ix3 (0 : Fin 1) w d)
    = rowsArr (V m c main_arg0) (V m c main_v0) (((cfg0.win 2).blk t).view.emb (ix3 (0 : Fin 1) w d))
  rw [hemb]
  refine (rows_apply (iblk m c 0 t) (iblk m c 1 t) w d).trans ?_
  show _ = rowsOf (V m c main_arg0) (V m c main_v0) (sent t) w d
  unfold rowsOf hit ind
  simp only [hid_blk m c t, wid_blk m c t]

theorem mem_blk_rows (t : Fin cfg0.N) (i : S32x1024x768.Idx) :
    i ∈ ((cfg0.win 2).blk t).view.set ↔ ∀ a : Fin 3, win0_2.index t a * S1x1024x768.size a ≤ (i a).val
      ∧ (i a).val < win0_2.index t a * S1x1024x768.size a + S1x1024x768.size a := by
  show i ∈ ((View.whole main_v1_0).slice (win0_2.rect t)).set ↔ _
  rw [View.set_slice_whole, Rect.mem_set_unit]
  exact Iff.rfl

/-- Every index of the pooled array lies in the block of the point that handles its sentence. -/
theorem cover_rows (i : S32x1024x768.Idx) :
    ∃ t : Fin cfg0.N, (cfg0.win 2).flush t = true ∧ i ∈ ((cfg0.win 2).blk t).view.set := by
  have hi0 : (i 0).val < 32 := (i 0).isLt
  have hi1 : (i 1).val < 1024 := (i 1).isLt
  have hi2 : (i 2).val < 768 := (i 2).isLt
  have hlt : (i 0).val < cfg0.N := lt_of_lt_of_eq hi0 N_0.symm
  refine ⟨⟨(i 0).val, hlt⟩, flush0_2 _, ?_⟩
  rw [mem_blk_rows]
  obtain ⟨-, -, e2, -⟩ := idx_all ⟨(i 0).val, hlt⟩
  have h0 : win0_2.index ⟨(i 0).val, hlt⟩ (0 : Fin 3) = (i 0).val := congrFun e2 0
  have h1 : win0_2.index ⟨(i 0).val, hlt⟩ (1 : Fin 3) = 0 := congrFun e2 1
  have h2 : win0_2.index ⟨(i 0).val, hlt⟩ (2 : Fin 3) = 0 := congrFun e2 2
  intro a
  match a with
  | ⟨0, _⟩ =>
    show win0_2.index _ (0 : Fin 3) * 1 ≤ (i 0).val ∧ (i 0).val < win0_2.index _ (0 : Fin 3) * 1 + 1
    rw [h0]; omega
  | ⟨1, _⟩ =>
    show win0_2.index _ (1 : Fin 3) * 1024 ≤ (i 1).val ∧ (i 1).val < win0_2.index _ (1 : Fin 3) * 1024 + 1024
    rw [h1]; omega
  | ⟨2, _⟩ =>
    show win0_2.index _ (2 : Fin 3) * 768 ≤ (i 2).val ∧ (i 2).val < win0_2.index _ (2 : Fin 3) * 768 + 768
    rw [h2]; omega

/-- The pooled array after the run. -/
theorem final_rows (c : Dev nD) :
    (dats m 0 c).arrAt 2 cfg0.N = rowsArr (V m c main_arg0) (V m c main_v0) :=
  (dats m 0 c).arrAt_eq_of_cover 2 (rowsArr (V m c main_arg0) (V m c main_v0)) (fun t _ => flushed_rows m c t) cover_rows

/-! ## The presence words -/

/-- What point `t` writes back to the presence array is row `t` of `maskArr`. -/
theorem flushed_mask (c : Dev nD) (t : Fin cfg0.N) :
    (dats m 0 c).flushed 3 t = ((cfg0.win 3).blk t).view.read (Elt Ideal) (maskArr (V m c main_v0)) := by
  show (cfg0.win 3).cut (grid0.coords t) ((dats m 0 c).after 3 t) = _
  rw [after0_3]
  unfold out0_3
  rw [View.canon_unit_zero hz3]
  simp only [View.ld_unit_zero (S := S1x2048x1) hz3]
  obtain ⟨-, -, -, e3⟩ := idx_all t
  have h0 : win0_3.index t (0 : Fin 3) = t.val := congrFun e3 0
  have h1 : win0_3.index t (1 : Fin 3) = 0 := congrFun e3 1
  have h2 : win0_3.index t (2 : Fin 3) = 0 := congrFun e3 2
  funext j
  obtain ⟨u, v, w, rfl⟩ : ∃ (u : Fin 1) (v : Fin 1) (w : Fin 1024), j = ix3 u v w := ⟨j 0, j 1, j 2, eq_ix3 j⟩
  obtain rfl : u = 0 := Subsingleton.elim _ _
  obtain rfl : v = 0 := Subsingleton.elim _ _
  have hemb : ((cfg0.win 3).blk t).view.emb (ix3 (0 : Fin 1) (0 : Fin 1) w) = (ix3 (sent t) (0 : Fin 1) w : S32x1x1024.Idx) := by
    funext a
    apply Fin.ext
    match a with
    | ⟨0, _⟩ => show win0_3.index t (0 : Fin 3) * 1 + 1 * 0 = t.val; rw [h0]; omega
    | ⟨1, _⟩ => show win0_3.index t (1 : Fin 3) * 1 + 1 * 0 = 0; rw [h1]
    | ⟨2, _⟩ => show win0_3.index t (2 : Fin 3) * 1024 + 1 * w.val = w.val; rw [h2]; omega
  show k0_pay3 (F := Ideal) (iblk m c 1 t) (ix3 (0 : Fin 1) (0 : Fin 1) w)
    = maskArr (V m c main_v0) (((cfg0.win 3).blk t).view.emb (ix3 (0 : Fin 1) (0 : Fin 1) w))
  rw [hemb]
  refine (present_apply (iblk m c 1 t) w).trans ?_
  show _ = maskOf (V m c main_v0) (sent t) w
  unfold maskOf hit ind
  simp only [wid_blk m c t]

theorem mem_blk_mask (t : Fin cfg0.N) (i : S32x1x1024.Idx) :
    i ∈ ((cfg0.win 3).blk t).view.set ↔ ∀ a : Fin 3, win0_3.index t a * S1x1x1024.size a ≤ (i a).val
      ∧ (i a).val < win0_3.index t a * S1x1x1024.size a + S1x1x1024.size a := by
  show i ∈ ((View.whole main_v1_1).slice (win0_3.rect t)).set ↔ _
  rw [View.set_slice_whole, Rect.mem_set_unit]
  exact Iff.rfl

theorem cover_mask (i : S32x1x1024.Idx) :
    ∃ t : Fin cfg0.N, (cfg0.win 3).flush t = true ∧ i ∈ ((cfg0.win 3).blk t).view.set := by
  have hi0 : (i 0).val < 32 := (i 0).isLt
  have hi1 : (i 1).val < 1 := (i 1).isLt
  have hi2 : (i 2).val < 1024 := (i 2).isLt
  have hlt : (i 0).val < cfg0.N := lt_of_lt_of_eq hi0 N_0.symm
  refine ⟨⟨(i 0).val, hlt⟩, flush0_3 _, ?_⟩
  rw [mem_blk_mask]
  obtain ⟨-, -, -, e3⟩ := idx_all ⟨(i 0).val, hlt⟩
  have h0 : win0_3.index ⟨(i 0).val, hlt⟩ (0 : Fin 3) = (i 0).val := congrFun e3 0
  have h1 : win0_3.index ⟨(i 0).val, hlt⟩ (1 : Fin 3) = 0 := congrFun e3 1
  have h2 : win0_3.index ⟨(i 0).val, hlt⟩ (2 : Fin 3) = 0 := congrFun e3 2
  intro a
  match a with
  | ⟨0, _⟩ =>
    show win0_3.index _ (0 : Fin 3) * 1 ≤ (i 0).val ∧ (i 0).val < win0_3.index _ (0 : Fin 3) * 1 + 1
    rw [h0]; omega
  | ⟨1, _⟩ =>
    show win0_3.index _ (1 : Fin 3) * 1 ≤ (i 1).val ∧ (i 1).val < win0_3.index _ (1 : Fin 3) * 1 + 1
    rw [h1]; omega
  | ⟨2, _⟩ =>
    show win0_3.index _ (2 : Fin 3) * 1024 ≤ (i 2).val ∧ (i 2).val < win0_3.index _ (2 : Fin 3) * 1024 + 1024
    rw [h2]; omega

/-- The presence-word array after the run. -/
theorem final_mask (c : Dev nD) : (dats m 0 c).arrAt 3 cfg0.N = maskArr (V m c main_v0) :=
  (dats m 0 c).arrAt_eq_of_cover 3 (maskArr (V m c main_v0)) (fun t _ => flushed_mask m c t) cover_mask

end Cert.KernelIdeal.PoolValue

end
-- ==== Proof.KernelRun.lean ====
/-
  The kernel's run, read: its two results as the specification's functions of the two arguments.

  The word-id column the region reads is the word-id argument with a unit axis appended, so the body's indicator is the
  specification's. With every hidden state a real number the rows' differences from themselves vanish, and the pooled
  array is the specification's; the presence words, compared with zero after the region and reshaped, are its mask.
-/
import proofs.«426323_j45887430590984_3_alg».proof.Proof.KernelArray
import Idealize.ShloMosaic.Lib.StableHlo.Run

set_option maxRecDepth 16384

noncomputable section

open scoped BigOperators

namespace Cert.KernelIdeal.PoolValue

open Cert.KernelIdeal Cert.KernelIdeal.Gen Idealize.ShloMosaic Idealize.ShloMosaic.TcCoe Idealize.SL.Sem
open Idealize.ShloMosaic.ValueIdx Cert.Pool Cert.KernelIdeal.PoolBody
open Idealize.ShloMosaic.Pipeline (Dat)

variable (m : (ℓ : Loc nD τ sig) → Buf (Elt Ideal) ℓ) (ρ : Dev nD → PrngReg)

/-- The hidden-state argument. -/
abbrev hidArg (c : Dev nD) : FVec Ideal SH .f32 := m ((c : Thread nD τ).loc main_arg0)
/-- The word-id argument. -/
abbrev widArg (c : Dev nD) : IVec SI 32 := m ((c : Thread nD τ).loc main_arg1)

/-- The column array the region finds is the word-id argument with a unit axis appended. -/
theorem wcol_eq (c : Dev nD) :
    (V m c main_v0 : IVec S32x2048x1 32)
      = broadcastInDim S32x2048x1 ![0, 1] bcast_S32x2048_S32x2048x1_0_1 (widArg m c) := by
  show StableHlo.after hostOps0 (fun b => m (c, b)) (Proc.devRef .tc main_v0) = _
  after_results

theorem wcol_apply (c : Dev nD) (b : Fin 32) (s : Fin 2048) (z : Fin 1) :
    (V m c main_v0 : IVec S32x2048x1 32) (ix3 b s z) = widArg m c (ix2 b s) :=
  (congrFun (wcol_eq m c) (ix3 b s z)).trans
    (broadcastInDim_apply _ bcast_S32x2048_S32x2048x1_0_1 (widArg m c) (ix3 b s z) (ix2 b s) (fun a => match a with
      | ⟨0, _⟩ => by show b.val = if (32 : Nat) = 1 then 0 else b.val; rw [if_neg (by decide)]
      | ⟨1, _⟩ => by show s.val = if (2048 : Nat) = 1 then 0 else s.val; rw [if_neg (by decide)]))

/-- With real hidden states the body's pooled value is the specification's. -/
theorem rows_eq_pooled (c : Dev nD) (hfin : ∀ i, ∃ r : ℝ, hidArg m c i = (r : EReal)) :
    rowsArr (V m c main_arg0) (V m c main_v0) = pooled (hidArg m c) (widArg m c) := by
  refine eq_pooled _ _ _ fun b w d => ?_
  show rowsOf (V m c main_arg0) (V m c main_v0) b w d = pooledAt (hidArg m c) (widArg m c) b w d
  unfold rowsOf pooledAt total Cert.Pool.count ind
  simp only [wcol_apply m c]
  rw [V_main_arg0 m c]
  have e1 := sum_indicator_mul (fun s : Fin 2048 => widArg m c (ix2 b s) = BitVec.ofNat 32 w.val)
    (fun s => hidArg m c (ix3 b s d))
  have e2 := sum_indicator_mul_sub_self (fun s : Fin 2048 => widArg m c (ix2 b s) = BitVec.ofNat 32 w.val)
    (fun s => hidArg m c (ix3 b s d)) (fun s => hfin _)
  have e3 : (∑ s : Fin 2048, (if widArg m c (ix2 b s) = BitVec.ofNat 32 w.val then (1 : EReal) else 0) * 1)
      = ∑ s : Fin 2048, if widArg m c (ix2 b s) = BitVec.ofNat 32 w.val then (1 : EReal) else 0 :=
    Finset.sum_congr rfl fun s _ => mul_one _
  rw [e1, e2, e3, add_zero]

/-- A widened bit compared with zero is the bit. -/
theorem ne_zero_setWidth (X : BitVec 1) : IntOp.cmpi .ne (X.setWidth 32) 0#32 = X := by
  revert X; decide

/-- The presence word compared with zero is the specification's presence bit. -/
theorem mask_ne_zero (c : Dev nD) (b : Fin 32) (w : Fin 1024) :
    IntOp.cmpi .ne (maskOf (V m c main_v0) b w) 0#32 = presentAt (widArg m c) b w := by
  unfold maskOf
  rw [ne_zero_setWidth]
  unfold presentAt Cert.Pool.count ind
  simp only [wcol_apply m c, one_mul]

/-- The mask result after the lines that follow the region. -/
theorem tail_mask (c : Dev nD) :
    Pipeline.afterTail₀ cfgs (dats m) 0 (V0 m) [hostOps1] c main_v5 = present (widArg m c) := by
  unfold Pipeline.afterTail₀
  show StableHlo.after hostOps1 _ (Proc.devRef .tc main_v5) = _
  after_results
  refine eq_present _ _ fun b w => ?_
  show shapeCast S32x1024 (cmpi .ne (Pipeline.withArrays spec0 c (V0 m c) (fun w' => (dats m 0 c).arrAt w' cfg0.N)
      (Proc.devRef .tc (Pipeline.arrRef spec0 3))) (broadcastInDim S32x1x1024 ![] bcast_S_S32x1x1024 (constantI S_ 32 0#32)))
    shapeCasts_S32x1x1024_S32x1024 (ix2 b w) = presentAt (widArg m c) b w
  rw [(Pipeline.withArrays_arr spec0 launch0.win.arr_inj c (V0 m c) (fun w' => (dats m 0 c).arrAt w' cfg0.N) 3).trans
      (final_mask m c),
    shapeCast_apply _ _ (ix2 b w) (ix3 b (0 : Fin 1) w) (by
      rw [Shape.rowMajor_val_three, Shape.rowMajor_val_two]
      show (b.val * 1 + 0) * 1024 + w.val = b.val * 1024 + w.val
      omega)]
  exact mask_ne_zero m c b w

/-! ## The run -/

/-- Under real hidden states: every weakly fair execution ends with the pooled result at the specification's pooled
    array, the mask result at its presence mask, and the two arguments unchanged. -/
theorem run (hfin : ∀ c i, ∃ r : ℝ, hidArg m c i = (r : EReal)) :
    θ_run defs (onTc (τ := τ) (main (F := Ideal))) ⟨m, fun _ => 0, ρ⟩ fun r => ∀ c : Dev nD,
      r.2.mem ((c : Thread nD τ).loc main_v1_0) = pooled (hidArg m c) (widArg m c)
      ∧ r.2.mem ((c : Thread nD τ).loc main_v5) = present (widArg m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).1 2).trans ((final_rows m c).trans (rows_eq_pooled m c (hfin c))),
        ((h c).2 main_v5 (Pipeline.mem_restRefs_of main_v5 (by decide) (by decide))).trans (tail_mask m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.PoolValue

end
-- ==== Proof.RefScatter.lean ====
/-
  The reference's two accumulating scatters read at an index, and its two results as the specification's functions.

  An update row of the flat array lands on the operand row its start index names, read as a signed integer,
  when that is inside the operand, and nowhere otherwise; the window coordinate is carried over unchanged.
  So the scatter at row `k` is the operand there plus the sum of the update rows whose start index is `k`.
  The start index of flat row `b' * 2048 + s` is the word id there plus `1024 * b'`; with word ids below
  `1024` nothing wraps, and that number is `b * 1024 + w` exactly when `b' = b` and the word id is `w`.
-/
import proofs.«426323_j45887430590984_3_alg».proof.Proof.Spec
import proofs.«426323_j45887430590984_3_alg».proof.Proof.RefReadP

noncomputable section

open scoped BigOperators

namespace Cert.Pool

open Idealize.ShloMosaic Idealize.ShloMosaic.ValueIdx Cert.ReferenceIdeal Cert.ReferenceIdeal.Gen

/-! ## Where an update lands -/

/-- An update lands on `i` exactly when start plus window coordinate is `i`'s coordinate on every axis. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split_ifs with h
  · constructor
    · intro e a
      have e' := congrFun (Option.some.inj e) a
      rw [← e']
      exact (Int.toNat_of_nonneg (h a).1).symm
    · intro e
      congr 1
      funext a
      refine Fin.ext ?_
      show (d.start j idx a + (d.window j a : Int)).toNat = (i a).val
      rw [e a]
      exact Int.toNat_natCast _
  · constructor
    · intro e
      cases e
    · intro e
      exfalso
      apply h
      intro a
      rw [e a]
      exact ⟨Int.natCast_nonneg _, Int.ofNat_lt.mpr (i a).isLt⟩

/-- The row scatter's start on the row axis is the start index of the update's row, read signed. -/
theorem rows_start0 {w : Nat} (idx : IVec S65536x1 w) (r : Fin 65536) (c : Fin 768) :
    scatter_S32768x768_S65536x1_S65536x768_1_0_0_1.start (ix2 r c) idx 0 = (idx (ix2 r 0)).toInt := by
  unfold ScatterDims.start
  rw [dif_pos (show (0 : Fin 2) ∈ scatter_S32768x768_S65536x1_S65536x768_1_0_0_1.scatterDimsToOperandDims from
    List.mem_singleton.mpr rfl)]
  congr 2
  funext b
  refine Fin.ext ?_
  match b with
  | ⟨0, _⟩ => rfl
  | ⟨1, _⟩ => rfl

/-- Its start on the column axis is zero: the map names the row axis only. -/
theorem rows_start1 {w : Nat} (idx : IVec S65536x1 w) (r : Fin 65536) (c : Fin 768) :
    scatter_S32768x768_S65536x1_S65536x768_1_0_0_1.start (ix2 r c) idx 1 = 0 := by
  unfold ScatterDims.start
  rw [dif_neg (show ¬ (1 : Fin 2) ∈ scatter_S32768x768_S65536x1_S65536x768_1_0_0_1.scatterDimsToOperandDims by decide)]

/-- The row axis is inserted: no window coordinate there. -/
theorem rows_window0 (r : Fin 65536) (c : Fin 768) :
    scatter_S32768x768_S65536x1_S65536x768_1_0_0_1.window (ix2 r c) 0 = 0 := by
  unfold ScatterDims.window
  rw [dif_neg (show ¬ (0 : Fin 2) ∈ scatter_S32768x768_S65536x1_S65536x768_1_0_0_1.sKept by decide)]

/-- The column axis carries the update's column. -/
theorem rows_window1 (r : Fin 65536) (c : Fin 768) :
    scatter_S32768x768_S65536x1_S65536x768_1_0_0_1.window (ix2 r c) 1 = c.val := by
  unfold ScatterDims.window
  rw [dif_pos (show (1 : Fin 2) ∈ scatter_S32768x768_S65536x1_S65536x768_1_0_0_1.sKept by decide)]
  rfl

/-- The update at row `r`, column `c` lands on row `k`, column `c'` exactly when its start index is `k` and the
    columns agree. -/
theorem rows_lands {w : Nat} (idx : IVec S65536x1 w) (r : Fin 65536) (c : Fin 768) (k : Fin 32768) (c' : Fin 768) :
    scatter_S32768x768_S65536x1_S65536x768_1_0_0_1.resultIdx? (ix2 r c) idx = some (ix2 k c')
      ↔ (idx (ix2 r 0)).toInt = (k.val : Int) ∧ c = c' := by
  rw [resultIdx?_eq_some_iff]
  constructor
  · intro h
    have h0 : scatter_S32768x768_S65536x1_S65536x768_1_0_0_1.start (ix2 r c) idx 0
        + (scatter_S32768x768_S65536x1_S65536x768_1_0_0_1.window (ix2 r c) 0 : Int) = (k.val : Int) := h 0
    have h1 : scatter_S32768x768_S65536x1_S65536x768_1_0_0_1.start (ix2 r c) idx 1
        + (scatter_S32768x768_S65536x1_S65536x768_1_0_0_1.window (ix2 r c) 1 : Int) = (c'.val : Int) := h 1
    rw [rows_start0, rows_window0] at h0
    rw [rows_start1, rows_window1] at h1
    exact ⟨by omega, Fin.ext (by omega)⟩
  · rintro ⟨h0, rfl⟩ a
    match a with
    | ⟨0, _⟩ =>
      show scatter_S32768x768_S65536x1_S65536x768_1_0_0_1.start (ix2 r c) idx 0
        + (scatter_S32768x768_S65536x1_S65536x768_1_0_0_1.window (ix2 r c) 0 : Int) = (k.val : Int)
      rw [rows_start0, rows_window0]
      omega
    | ⟨1, _⟩ =>
      show scatter_S32768x768_S65536x1_S65536x768_1_0_0_1.start (ix2 r c) idx 1
        + (scatter_S32768x768_S65536x1_S65536x768_1_0_0_1.window (ix2 r c) 1 : Int) = (c.val : Int)
      rw [rows_start1, rows_window1]
      omega

/-- The count scatter's start is the start index of the update's row, read signed. -/
theorem cnt_start0 {w : Nat} (idx : IVec S65536x1 w) (r : Fin 65536) :
    scatter_S32768_S65536x1_S65536_n_0_0_1.start (ix1 r) idx 0 = (idx (ix2 r 0)).toInt := by
  unfold ScatterDims.start
  rw [dif_pos (show (0 : Fin 1) ∈ scatter_S32768_S65536x1_S65536_n_0_0_1.scatterDimsToOperandDims from
    List.mem_singleton.mpr rfl)]
  congr 2
  funext b
  refine Fin.ext ?_
  match b with
  | ⟨0, _⟩ => rfl
  | ⟨1, _⟩ => rfl

/-- Its one axis is inserted: no window coordinate. -/
theorem cnt_window0 (r : Fin 65536) :
    scatter_S32768_S65536x1_S65536_n_0_0_1.window (ix1 r) 0 = 0 := by
  unfold ScatterDims.window
  rw [dif_neg (show ¬ (0 : Fin 1) ∈ scatter_S32768_S65536x1_S65536_n_0_0_1.sKept by decide)]

/-- The update at row `r` lands on row `k` exactly when its start index is `k`. -/
theorem cnt_lands {w : Nat} (idx : IVec S65536x1 w) (r : Fin 65536) (k : Fin 32768) :
    scatter_S32768_S65536x1_S65536_n_0_0_1.resultIdx? (ix1 r) idx = some (ix1 k)
      ↔ (idx (ix2 r 0)).toInt = (k.val : Int) := by
  rw [resultIdx?_eq_some_iff]
  constructor
  · intro h
    have h0 : scatter_S32768_S65536x1_S65536_n_0_0_1.start (ix1 r) idx 0
        + (scatter_S32768_S65536x1_S65536_n_0_0_1.window (ix1 r) 0 : Int) = (k.val : Int) := h 0
    rw [cnt_start0, cnt_window0] at h0
    omega
  · intro h0 a
    match a with
    | ⟨0, _⟩ =>
      show scatter_S32768_S65536x1_S65536_n_0_0_1.start (ix1 r) idx 0
        + (scatter_S32768_S65536x1_S65536_n_0_0_1.window (ix1 r) 0 : Int) = (k.val : Int)
      rw [cnt_start0, cnt_window0]
      omega

/-! ## The scatters at an index -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The count scatter at row `k`: the operand there plus the updates whose start index is `k`. -/
theorem cnt_scatter_apply {w : Nat} (x : FVec Ideal S32768 .f32) (idx : IVec S65536x1 w) (upd : FVec Ideal S65536 .f32)
    (k : Fin 32768) :
    Host.scatterAdd (F := Ideal) scatter_S32768_S65536x1_S65536_n_0_0_1 x idx upd (ix1 k)
      = x (ix1 k) + ∑ r : Fin 65536, if (idx (ix2 r 0)).toInt = (k.val : Int) then upd (ix1 r) else 0 := by
  unfold Host.scatterAdd
  rw [Ideal.hostScatterAdd_def]
  unfold Ideal.hostScatterAdd
  refine congrArg (x (ix1 k) + ·) ?_
  rw [Finset.sum_filter, sum_idx1]
  refine Finset.sum_congr rfl fun r _ => ?_
  exact if_congr (cnt_lands idx r k) rfl rfl

/-- The row scatter at row `k`, column `c`: the operand there plus column `c` of the update rows whose start
    index is `k`. -/
theorem rows_scatter_apply {w : Nat} (x : FVec Ideal S32768x768 .f32) (idx : IVec S65536x1 w)
    (upd : FVec Ideal S65536x768 .f32) (k : Fin 32768) (c : Fin 768) :
    Host.scatterAdd (F := Ideal) scatter_S32768x768_S65536x1_S65536x768_1_0_0_1 x idx upd (ix2 k c)
      = x (ix2 k c) + ∑ r : Fin 65536, if (idx (ix2 r 0)).toInt = (k.val : Int) then upd (ix2 r c) else 0 := by
  unfold Host.scatterAdd
  rw [Ideal.hostScatterAdd_def]
  unfold Ideal.hostScatterAdd
  refine congrArg (x (ix2 k c) + ·) ?_
  rw [Finset.sum_filter, sum_idx2]
  refine Finset.sum_congr rfl fun r _ => ?_
  rw [Finset.sum_eq_single c]
  · exact if_congr ((rows_lands idx r c k c).trans (and_iff_left rfl)) rfl rfl
  · intro c' _ hne
    exact if_neg fun h => hne ((rows_lands idx r c' k c).mp h).2
  · intro h
    exact absurd (Finset.mem_univ c) h

/-! ## Flat rows as sentence and subword -/

/-- The flat row of subword `s` of sentence `b`. -/
abbrev row (b : Fin 32) (s : Fin 2048) : Fin 65536 :=
  ⟨b.val * 2048 + s.val, by have := b.isLt; have := s.isLt; omega⟩

/-- The flat row of word `w` of sentence `b`. -/
abbrev wrow (b : Fin 32) (w : Fin 1024) : Fin 32768 :=
  ⟨b.val * 1024 + w.val, by have := b.isLt; have := w.isLt; omega⟩

/-- Flat rows are the pairs of a sentence and a subword. -/
def rowEquiv : Fin 32 × Fin 2048 ≃ Fin 65536 where
  toFun p := row p.1 p.2
  invFun r := (⟨r.val / 2048, by have := r.isLt; omega⟩, ⟨r.val % 2048, by omega⟩)
  left_inv p := by
    obtain ⟨a, b⟩ := p
    have := b.isLt
    refine Prod.ext (Fin.ext ?_) (Fin.ext ?_)
    · show (a.val * 2048 + b.val) / 2048 = a.val
      omega
    · show (a.val * 2048 + b.val) % 2048 = b.val
      omega
  right_inv r := Fin.ext (by
    show r.val / 2048 * 2048 + r.val % 2048 = r.val
    omega)

/-- A sum over the flat rows is the double sum over sentences and subwords. -/
theorem sum_rows {M : Type*} [AddCommMonoid M] (f : Fin 65536 → M) :
    ∑ r, f r = ∑ b : Fin 32, ∑ s : Fin 2048, f (row b s) := by
  rw [← Equiv.sum_comp rowEquiv f, Fintype.sum_prod_type]
  rfl

/-- The start index of a flat row: the word id there plus `1024` times the sentence. -/
theorem seg_apply (wid : IVec SI 32) (b : Fin 32) (s : Fin 2048) :
    ReadP.val_main_v9 (F := Ideal) wid (ix2 (row b s) 0) = wid (ix2 b s) + BitVec.ofNat 32 b.val * 1024#32 := by
  have hb := b.isLt
  have hs := s.isLt
  rw [ReadP.val_main_v9_apply, ReadP.val_main_v6_apply, ReadP.val_main_v5_apply, ReadP.val_main_v4_apply,
    ReadP.val_main_v3_apply, ReadP.val_main_v1_apply, ReadP.val_main_v0_apply, ReadP.val_main_v2_apply,
    ReadP.val_main_c_apply]
  have hi : ReadP.idx_main_v6 (ReadP.idx_main_v9 (ix2 (row b s) 0)) = ix2 b s := by
    funext a
    refine Fin.ext ?_
    match a with
    | ⟨0, _⟩ =>
      show (b.val * 2048 + s.val) / 2048 = b.val
      omega
    | ⟨1, _⟩ =>
      show (b.val * 2048 + s.val) % 2048 = s.val
      omega
  rw [hi]
  rfl

/-- With the word id below `1024` the start index does not wrap: read signed it is the number itself. -/
theorem seg_toInt (x : BitVec 32) (hx : x.toNat < 1024) (b : Fin 32) :
    (x + BitVec.ofNat 32 b.val * 1024#32).toInt = ((x.toNat + 1024 * b.val : Nat) : Int) := by
  have hb := b.isLt
  have hn : (x + BitVec.ofNat 32 b.val * 1024#32).toNat = x.toNat + 1024 * b.val := by
    rw [BitVec.toNat_add, BitVec.toNat_mul, BitVec.toNat_ofNat, BitVec.toNat_ofNat]
    norm_num
    omega
  rw [BitVec.toInt_eq_toNat_of_lt (by rw [hn]; norm_num; omega), hn]

/-- Flat row `(b', s)` starts at word row `(b, w)` exactly when it is a row of sentence `b` whose word id is `w`. -/
theorem seg_lands (wid : IVec SI 32) (hr : ∀ i, (wid i).toNat < 1024) (b' b : Fin 32) (s : Fin 2048) (w : Fin 1024) :
    (ReadP.val_main_v9 (F := Ideal) wid (ix2 (row b' s) 0)).toInt = ((wrow b w).val : Int)
      ↔ b' = b ∧ wid (ix2 b' s) = BitVec.ofNat 32 w.val := by
  have hb := b.isLt
  have hb' := b'.isLt
  have hw := w.isLt
  have hx := hr (ix2 b' s)
  rw [seg_apply, seg_toInt _ hx]
  constructor
  · intro h
    have h' : (wid (ix2 b' s)).toNat + 1024 * b'.val = b.val * 1024 + w.val := by exact_mod_cast h
    refine ⟨Fin.ext (by omega), BitVec.eq_of_toNat_eq ?_⟩
    rw [BitVec.toNat_ofNat, Nat.mod_eq_of_lt (by omega)]
    omega
  · rintro ⟨rfl, h⟩
    have h' : (wid (ix2 b' s)).toNat = w.val := by
      rw [h, BitVec.toNat_ofNat, Nat.mod_eq_of_lt (by omega)]
    show (((wid (ix2 b' s)).toNat + 1024 * b'.val : Nat) : Int) = ((b'.val * 1024 + w.val : Nat) : Int)
    rw [h']
    congr 1
    omega

/-- Column `d` of flat row `(b, s)` of the reshaped hidden states is the hidden state at `(b, s, d)`. -/
theorem upd_apply (h : FVec Ideal SH .f32) (b : Fin 32) (s : Fin 2048) (d : Fin 768) :
    ReadP.val_main_v7 (F := Ideal) h (ix2 (row b s) d) = h (ix3 b s d) := by
  have hb := b.isLt
  have hs := s.isLt
  have hd := d.isLt
  rw [ReadP.val_main_v7_apply]
  congr 1
  funext a
  refine Fin.ext ?_
  match a with
  | ⟨0, _⟩ =>
    show ((b.val * 2048 + s.val) * 768 + d.val) / 1572864 = b.val
    omega
  | ⟨1, _⟩ =>
    show ((b.val * 2048 + s.val) * 768 + d.val) / 768 % 2048 = s.val
    omega
  | ⟨2, _⟩ =>
    show ((b.val * 2048 + s.val) * 768 + d.val) % 768 = d.val
    omega

/-! ## The two scatters are the count and the total -/

/-- The count scatter at word row `(b, w)` is the number of subwords of sentence `b` with word id `w`. -/
theorem ref_count (wid : IVec SI 32) (hr : ∀ i, (wid i).toNat < 1024) (b : Fin 32) (w : Fin 1024) :
    ReadP.val_main_v14 (F := Ideal) wid (ix1 (wrow b w)) = count wid b w := by
  unfold ReadP.val_main_v14
  rw [cnt_scatter_apply]
  have hx : ReadP.val_main_v12 (F := Ideal) (ix1 (wrow b w)) = 0 := by
    rw [ReadP.val_main_v12_apply, ReadP.val_main_cst_1_apply]
    exact Ideal.ofBits_zero_f32
  rw [hx, zero_add, sum_rows, Finset.sum_eq_single b]
  · unfold count
    refine Finset.sum_congr rfl fun s _ => ?_
    have hu : ReadP.val_main_v11 (F := Ideal) (ix1 (row b s)) = 1 := by
      rw [ReadP.val_main_v11_apply, ReadP.val_main_cst_0_apply]
      exact ofBits_one_f32
    rw [hu]
    exact if_congr ((seg_lands wid hr b b s w).trans (and_iff_right rfl)) rfl rfl
  · intro b' _ hne
    exact Finset.sum_eq_zero fun s _ => if_neg fun h => hne ((seg_lands wid hr b' b s w).mp h).1
  · intro h
    exact absurd (Finset.mem_univ b) h

/-- The row scatter at word row `(b, w)`, column `d`, is the sum of coordinate `d` over those subwords. -/
theorem ref_total (h : FVec Ideal SH .f32) (wid : IVec SI 32) (hr : ∀ i, (wid i).toNat < 1024)
    (b : Fin 32) (w : Fin 1024) (d : Fin 768) :
    ReadP.val_main_v10 (F := Ideal) h wid (ix2 (wrow b w) d) = total h wid b w d := by
  unfold ReadP.val_main_v10
  rw [rows_scatter_apply]
  have hx : ReadP.val_main_v8 (F := Ideal) (ix2 (wrow b w) d) = 0 := by
    rw [ReadP.val_main_v8_apply, ReadP.val_main_cst_apply]
    exact Ideal.ofBits_zero_f32
  rw [hx, zero_add, sum_rows, Finset.sum_eq_single b]
  · unfold total
    refine Finset.sum_congr rfl fun s _ => ?_
    rw [upd_apply]
    exact if_congr ((seg_lands wid hr b b s w).trans (and_iff_right rfl)) rfl rfl
  · intro b' _ hne
    exact Finset.sum_eq_zero fun s _ => if_neg fun h => hne ((seg_lands wid hr b' b s w).mp h).1
  · intro h
    exact absurd (Finset.mem_univ b) h

/-! ## The reference's two results -/

/-- The reference's presence mask is the specification's. -/
theorem ref_present (wid : IVec SI 32) (hr : ∀ i, (wid i).toNat < 1024) (b : Fin 32) (w : Fin 1024) :
    Cert.ReferenceIdeal.ReadP.val_main_v18 (F := Ideal) wid (ix2 b w) = presentAt wid b w := by
  rw [ReadP.val_main_v18_apply, ReadP.val_main_v16_apply, ReadP.val_main_v17_apply, ReadP.val_main_cst_2_apply]
  have hi : ReadP.idx_main_v16 (ix2 b w) = ix1 (wrow b w) := by
    funext a
    refine Fin.ext ?_
    match a with
    | ⟨0, _⟩ => rfl
  rw [hi, ref_count wid hr]
  show Ideal.cmp .ogt (count wid b w) (Ideal.ofBits .f32 0x00000000#32) = Ideal.cmp .ogt (count wid b w) 0
  rw [Ideal.ofBits_zero_f32]

/-- The reference's pooled rows are the specification's. -/
theorem ref_pooled (h : FVec Ideal SH .f32) (wid : IVec SI 32) (hr : ∀ i, (wid i).toNat < 1024)
    (b : Fin 32) (w : Fin 1024) (d : Fin 768) :
    Cert.ReferenceIdeal.ReadP.val_main_v23 (F := Ideal) h wid (ix3 b w d) = pooledAt h wid b w d := by
  have hb := b.isLt
  have hw := w.isLt
  have hd := d.isLt
  rw [ReadP.val_main_v23_apply, ReadP.val_main_v15_apply, ReadP.val_main_v22_apply, ReadP.val_main_v21_apply,
    ReadP.val_main_v20_apply, ReadP.val_main_v16_apply, ReadP.val_main_v19_apply, ReadP.val_main_cst_3_apply]
  have h15 : ReadP.idx_main_v15 (ix3 b w d) = ix2 (wrow b w) d := by
    funext a
    refine Fin.ext ?_
    match a with
    | ⟨0, _⟩ =>
      show ((b.val * 1024 + w.val) * 768 + d.val) / 768 = b.val * 1024 + w.val
      omega
    | ⟨1, _⟩ =>
      show ((b.val * 1024 + w.val) * 768 + d.val) % 768 = d.val
      omega
  have h16 : ReadP.idx_main_v16 (ReadP.idx_main_v21 (ReadP.idx_main_v22 (ix3 b w d))) = ix1 (wrow b w) := by
    funext a
    refine Fin.ext ?_
    match a with
    | ⟨0, _⟩ => rfl
  rw [h15, h16, ref_total h wid hr, ref_count wid hr]
  show Ideal.div (total h wid b w d) (max (count wid b w) (Ideal.ofBits .f32 0x3F800000#32)) = pooledAt h wid b w d
  rw [ofBits_one_f32, div_max_count]
  rfl

end Cert.Pool

end
-- ==== Proof.lean ====
/-
  Mean pooling of subword embeddings into word embeddings: the kernel against its reference.

  For sentence `b`, word `w` and hidden coordinate `d`, write `T = ∑ {s : word id (b, s) = w} hidden (b, s, d)` and
  `n` for the number of such subwords. The kernel builds the 0/1 matrix `[word id s = w]` of one sentence and takes
  `T` as its product with the rows (twice: with the rows, and with the rows' differences from themselves, which are
  zero for real rows), `n` as its product with a column of ones, and stores `(T + 0) · (1 / max n 1)`; it takes
  `n` once more as a row of ones times the matrix and stores whether `n > 0`. The reference adds every row into the
  flat row `word id + 1024 · b` of a zero array, does the same with ones, and divides by `max n 1`. With every word
  id in `[0, 1024)` the flat row of `(b', s)` is `1024 · b + w` exactly when `b' = b` and the word id is `w`, so
  the two sums run over the same subwords; and dividing by a real `max n 1 ≥ 1` is multiplying by its reciprocal.
  The frames of the two kernel programs are the launch's; the reference's is its run with the results dropped.
-/
import proofs.«426323_j45887430590984_3_alg».proof.Defs
import proofs.«426323_j45887430590984_3_alg».proof.Proof.Gen.Kernel
import proofs.«426323_j45887430590984_3_alg».proof.Proof.Gen.Kernel.Frame
import proofs.«426323_j45887430590984_3_alg».proof.Proof.Gen.KernelIdeal
import proofs.«426323_j45887430590984_3_alg».proof.Proof.Gen.KernelIdeal.Frame
import proofs.«426323_j45887430590984_3_alg».proof.Proof.Gen.ReferenceIdeal
import proofs.«426323_j45887430590984_3_alg».proof.Proof.Gen.Pre_finite_inputs
import proofs.«426323_j45887430590984_3_alg».proof.Proof.RefRunP
import proofs.«426323_j45887430590984_3_alg».proof.Proof.RefReadP
import proofs.«426323_j45887430590984_3_alg».proof.Proof.Spec
import proofs.«426323_j45887430590984_3_alg».proof.Proof.PreFacts
import proofs.«426323_j45887430590984_3_alg».proof.Proof.KernelRun
import proofs.«426323_j45887430590984_3_alg».proof.Proof.RefScatter
import Idealize.ShloMosaic.Adequacy
import Idealize.ShloMosaic.Init

noncomputable section

namespace Cert.Proof

open Idealize.ShloMosaic Idealize.SL.Sem Cert.Pool

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.ValueP.run (F := Ideal) m ρ)

/-- The one rewrite of the ideal pass: narrowing the rows to bf16 and widening them back is the identity at the ideal
    values. -/
theorem preserves : Cert.preserves_Kernel_KernelIdeal :=
  IdealRules.truncf_extf.statement Cert.KernelIdeal.S2048x768 .f32 .bf16

/-- Both programs end at the specification's pooled array and presence mask of the arguments they agree on. -/
theorem algebraic : Cert.algebraic_KernelIdeal_ReferenceIdeal := by
  intro m ρ m' ρ' hpre hagree
  have hfin : ∀ c i, ∃ r : ℝ, Cert.KernelIdeal.PoolValue.hidArg m c i = (r : EReal) :=
    fun c => real_of_pre _ _ (hpre c)
  have hrange : ∀ c i, (Cert.KernelIdeal.PoolValue.widArg m c i).toNat < 1024 :=
    fun c => range_of_pre _ _ (hpre c)
  refine ⟨fun c => pooled (Cert.KernelIdeal.PoolValue.hidArg m c) (Cert.KernelIdeal.PoolValue.widArg m c),
    fun c => present (Cert.KernelIdeal.PoolValue.widArg m c),
    Cert.KernelIdeal.PoolValue.run m ρ hfin, ?_⟩
  refine (θ_run Cert.ReferenceIdeal.defs _ _).mono
    (fun _ h c => ⟨(h c).1.trans ?_, (h c).2.1.trans ?_, (h c).2.2.1, (h c).2.2.2⟩)
    (Cert.ReferenceIdeal.ValueP.run (F := Ideal) m' ρ')
  · rw [Cert.ReferenceIdeal.ReadP.val_main_v23_eq, (hagree c).1, (hagree c).2]
    exact eq_pooled _ _ _ (ref_pooled _ _ (hrange c))
  · rw [Cert.ReferenceIdeal.ReadP.val_main_v18_eq, (hagree c).2]
    exact eq_present _ _ (ref_present _ (hrange c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
